-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S16384x576 : Shape := ⟨2, ![16384, 576]⟩
abbrev S64x576 : Shape := ⟨2, ![64, 576]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel
  bcast_S_S64x576 : S_.BroadcastsInDim S64x576 (![] : Fin 0 → Fin S64x576.rank)
  reducesTo_S64x576_S_d0_1 : S64x576.ReducesTo [0, 1] S_
  bcast_S_S16384x576 : S_.BroadcastsInDim S16384x576 (![] : Fin 0 → Fin S16384x576.rank)
  reducesTo_S16384x576_S_d0_1 : S16384x576.ReducesTo [0, 1] S_

variable [Facts]

def fn {F : FTy → Type} [FloatOps F] (main_arg0 : FVec F S16x64x128x128 .f32) (main_arg1 : IVec S16384x576 32) (main_arg2 : FVec F S64x576 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S64x576 .f32 := Host.absf main_arg2
  let main_cst_0 : FVec F S_ .f32 := constant S_ .f32 0x7F800000#32
  let main_v5 : FVec F S64x576 .f32 := broadcastInDim S64x576 ![] bcast_S_S64x576 main_cst_0
  let main_v6 : IVec S64x576 1 := cmpf .olt main_v4 main_v5
  let main_c_1 : IVec S_ 1 := constantI S_ 1 1#1
  let main_v7 : IVec S_ 1 := (fun x v => Host.reduce IntOp.andi x v reducesTo_S64x576_S_d0_1 h_S_) main_v6 main_c_1
  let main_v8 : IVec S_ 1 := andi main_v3 main_v7
  let main_c_2 : IVec S_ 32 := constantI S_ 32 0#32
  let main_v9 : IVec S16384x576 32 := broadcastInDim S16384x576 ![] bcast_S_S16384x576 main_c_2
  let main_v10 : IVec S16384x576 1 := cmpi .sge main_arg1 main_v9
  let main_c_3 : IVec S_ 1 := constantI S_ 1 1#1
  let main_v11 : IVec S_ 1 := (fun x v => Host.reduce IntOp.andi x v reducesTo_S16384x576_S_d0_1 h_S_) main_v10 main_c_3
  let main_v12 : IVec S_ 1 := andi main_v8 main_v11
  main_v12
-- ==== Kernel.lean ====
abbrev S16x64x128x128 : Shape := ⟨4, ![16, 64, 128, 128]⟩
abbrev S16384x576 : Shape := ⟨2, ![16384, 576]⟩
abbrev S64x576 : Shape := ⟨2, ![64, 576]⟩
abbrev S16x1048576 : Shape := ⟨2, ![16, 1048576]⟩
abbrev S1048576x16 : Shape := ⟨2, ![1048576, 16]⟩
abbrev S16384x576x1 : Shape := ⟨3, ![16384, 576, 1]⟩
abbrev S16384x576x16 : Shape := ⟨3, ![16384, 576, 16]⟩
abbrev S16x16384x576 : Shape := ⟨3, ![16, 16384, 576]⟩
abbrev S16x64x16384 : Shape := ⟨3, ![16, 64, 16384]⟩
abbrev S1x8192x576 : Shape := ⟨3, ![1, 8192, 576]⟩
abbrev S1x64x8192 : Shape := ⟨3, ![1, 64, 8192]⟩
abbrev S8192x576 : Shape := ⟨2, ![8192, 576]⟩
abbrev S64x8192 : Shape := ⟨2, ![64, 8192]⟩

abbrev nBuf : Space → Nat
  | .hbm => 12
  | .vmem => 5
  | .smem => 0
  | _ => 0

abbrev bufTy : (tb : Table) → Fin (tcTables nBuf tb) → BufTy
  | .hbm, ⟨0, _⟩ => ⟨S16x64x128x128, .f32⟩
  | .hbm, ⟨1, _⟩ => ⟨S16384x576, .i32⟩
  | .hbm, ⟨2, _⟩ => ⟨S64x576, .f32⟩
  | .hbm, ⟨3, _⟩ => ⟨S16x64x128x128, .bf16⟩
  | .hbm, ⟨4, _⟩ => ⟨S16x1048576, .bf16⟩
  | .hbm, ⟨5, _⟩ => ⟨S1048576x16, .bf16⟩
  | .hbm, ⟨6, _⟩ => ⟨S16384x576x1, .i32⟩
  | .hbm, ⟨7, _⟩ => ⟨S16384x576x16, .bf16⟩
  | .hbm, ⟨8, _⟩ => ⟨S16x16384x576, .bf16⟩
  | .hbm, ⟨9, _⟩ => ⟨S64x576, .bf16⟩
  | .hbm, ⟨10, _⟩ => ⟨S16x64x16384, .f32⟩
  | .hbm, ⟨11, _⟩ => ⟨S16x64x128x128, .f32⟩
  | .local _ .vmem, ⟨0, _⟩ => ⟨S1x8192x576, .bf16⟩
  | .local _ .vmem, ⟨1, _⟩ => ⟨S1x8192x576, .bf16⟩
  | .local _ .vmem, ⟨2, _⟩ => ⟨S64x576, .bf16⟩
  | .local _ .vmem, ⟨3, _⟩ => ⟨S1x64x8192, .f32⟩
  | .local _ .vmem, ⟨4, _⟩ => ⟨S1x64x8192, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  shapeCasts_S16x64x128x128_S16x1048576 : S16x64x128x128.ShapeCasts S16x1048576
  transposes_S16x1048576_S1048576x16_1_0 : S16x1048576.Transposes [1, 0] S1048576x16
  bcast_S16384x576_S16384x576x1_0_1 : S16384x576.BroadcastsInDim S16384x576x1 (![0, 1] : Fin 2 → Fin S16384x576x1.rank)
  transposes_S16384x576x16_S16x16384x576_2_0_1 : S16384x576x16.Transposes [2, 0, 1] S16x16384x576
  inb_S64x576_S64x576_0_0 : ∀ a, (![0, 0] : Fin 2 → Nat) a + S64x576.size a ≤ S64x576.size a
  h_S64x576 : 0 < S64x576.numel
  shapeCasts_S64x576_S64x576 : S64x576.ShapeCasts S64x576
  inb_S1x8192x576_S1x8192x576_0_0_0 : ∀ a, (![0, 0, 0] : Fin 3 → Nat) a + S1x8192x576.size a ≤ S1x8192x576.size a
  h_S1x8192x576 : 0 < S1x8192x576.numel
  shapeCasts_S1x8192x576_S8192x576 : S1x8192x576.ShapeCasts S8192x576
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  shapeCasts_S64x8192_S1x64x8192 : S64x8192.ShapeCasts S1x64x8192
  shapeCasts_S16x64x16384_S16x64x128x128 : S16x64x16384.ShapeCasts S16x64x128x128
  gather_S1048576x16_S16384x576x1_S16384x576x16_2_0_n_n_0_2_116_wf : GatherDims.WF S1048576x16 S16384x576x1 S16384x576x16 [2] [0] [] [0] [] 2 ![1, 16]
  dot_S64x576_S8192x576_S64x8192_1_1_0_0_n_n_wf : DotDims.WF S64x576 S8192x576 S64x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x576.size a ≤ S16x16384x576.size a
  hwx0_0 : ∀ i : grid0.Coords, EltTy.bits .bf16 = 32 ∨ (Rect.block (s := S16x16384x576) S1x8192x576.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x576.size a ≤ S64x576.size a
  hwx0_1 : ∀ i : grid0.Coords, EltTy.bits .bf16 = 32 ∨ (Rect.block (s := S64x576) S64x576.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x8192.size a ≤ S16x64x16384.size a
  hwx0_2 : ∀ i : grid0.Coords, EltTy.bits .f32 = 32 ∨ (Rect.block (s := S16x64x16384) S1x64x8192.size (cc0_transform_2 i) (hinb0_2 i)).WholeWords (EltTy.packing .f32)

variable [Facts₀]

def gather_S1048576x16_S16384x576x1_S16384x576x16_2_0_n_n_0_2_116 : GatherDims S1048576x16 S16384x576x1 S16384x576x16 where
  offsetDims := [2]
  collapsedSliceDims := [0]
  operandBatchingDims := []
  startIndicesBatchingDims := []
  startIndexMap := [0]
  indexVectorDim := 2
  sliceSizes := ![1, 16]
  wf := gather_S1048576x16_S16384x576x1_S16384x576x16_2_0_n_n_0_2_116_wf
def dot_S64x576_S8192x576_S64x8192_1_1_0_0_n_n : DotDims S64x576 S8192x576 S64x8192 where
  lhsContracting := [1]
  rhsContracting := [1]
  lhsNonContracting := [0]
  rhsNonContracting := [0]
  lhsBatch := []
  rhsBatch := []
  wf := dot_S64x576_S8192x576_S64x8192_1_1_0_0_n_n_wf

abbrev win0_0 : Pipeline.Window sig grid0 :=
  Pipeline.Window.ofSpec (Memref.whole main_v4) S1x8192x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S16384x576 : Shape := ⟨2, ![16384, 576]⟩
abbrev S64x576 : Shape := ⟨2, ![64, 576]⟩
abbrev S16x1048576 : Shape := ⟨2, ![16, 1048576]⟩
abbrev S_ : Shape := ⟨0, ![]⟩
abbrev S16384x576x1 : Shape := ⟨3, ![16384, 576, 1]⟩
abbrev S16x16384x576 : Shape := ⟨3, ![16, 16384, 576]⟩
abbrev S16x16384x64 : Shape := ⟨3, ![16, 16384, 64]⟩
abbrev S16x64x16384 : Shape := ⟨3, ![16, 64, 16384]⟩

abbrev nBuf : Space → Nat
  | .hbm => 16
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S16384x576, .i32⟩
  | .hbm, ⟨2, _⟩ => ⟨S64x576, .f32⟩
  | .hbm, ⟨3, _⟩ => ⟨S16x1048576, .f32⟩
  | .hbm, ⟨4, _⟩ => ⟨S_, .i32⟩
  | .hbm, ⟨5, _⟩ => ⟨S16384x576, .i32⟩
  | .hbm, ⟨6, _⟩ => ⟨S16384x576, .i1⟩
  | .hbm, ⟨7, _⟩ => ⟨S_, .i32⟩
  | .hbm, ⟨8, _⟩ => ⟨S16384x576, .i32⟩
  | .hbm, ⟨9, _⟩ => ⟨S16384x576, .i32⟩
  | .hbm, ⟨10, _⟩ => ⟨S16384x576, .i32⟩
  | .hbm, ⟨11, _⟩ => ⟨S16384x576x1, .i32⟩
  | .hbm, ⟨12, _⟩ => ⟨S16x16384x576, .f32⟩
  | .hbm, ⟨13, _⟩ => ⟨S16x16384x64, .f32⟩
  | .hbm, ⟨14, _⟩ => ⟨S16x64x16384, .f32⟩
  | .hbm, ⟨15, _⟩ => ⟨S16x64x128x128, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  shapeCasts_S16x64x128x128_S16x1048576 : S16x64x128x128.ShapeCasts S16x1048576
  bcast_S_S16384x576 : S_.BroadcastsInDim S16384x576 (![] : Fin 0 → Fin S16384x576.rank)
  bcast_S16384x576_S16384x576x1_0_1 : S16384x576.BroadcastsInDim S16384x576x1 (![0, 1] : Fin 2 → Fin S16384x576x1.rank)
  transposes_S16x16384x64_S16x64x16384_0_2_1 : S16x16384x64.Transposes [0, 2, 1] S16x64x16384
  shapeCasts_S16x64x16384_S16x64x128x128 : S16x64x16384.ShapeCasts S16x64x128x128
  gather_S16x1048576_S16384x576x1_S16x16384x576_0_1_n_n_1_2_161_wf : GatherDims.WF S16x1048576 S16384x576x1 S16x16384x576 [0] [1] [] [1] [] 2 ![16, 1]
  dot_S16x16384x576_S64x576_S16x16384x64_2_1_01_0_n_n_wf : DotDims.WF S16x16384x576 S64x576 S16x16384x64 [2] [1] [0, 1] [0] [] []

variable [Facts₀]

def gather_S16x1048576_S16384x576x1_S16x16384x576_0_1_n_n_1_2_161 : GatherDims S16x1048576 S16384x576x1 S16x16384x576 where
  offsetDims := [0]
  collapsedSliceDims := [1]
  operandBatchingDims := []
  startIndicesBatchingDims := []
  startIndexMap := [1]
  indexVectorDim := 2
  sliceSizes := ![16, 1]
  wf := gather_S16x1048576_S16384x576x1_S16x16384x576_0_1_n_n_1_2_161_wf
def dot_S16x16384x576_S64x576_S16x16384x64_2_1_01_0_n_n : DotDims S16x16384x576 S64x576 S16x16384x64 where
  lhsContracting := [2]
  rhsContracting := [1]
  lhsNonContracting := [0, 1]
  rhsNonContracting := [0]
  lhsBatch := []
  rhsBatch := []
  wf := dot_S16x16384x576_S64x576_S16x16384x64_2_1_01_0_n_n_wf

class Facts : Prop extends Facts₀ where

variable [Facts]
-- ==== Proof.KernelPayload.lean ====
/-
  The kernel body's one store, read at an index.

  At a grid point the body loads the weights `w : [64, 576]` and the point's block of gathered rows
  `g : [1, 8192, 576]`, drops the block's unit axis, contracts the two over their common axis of extent 576 on the
  matrix unit into a zero accumulator, and stores the `[64, 8192]` product as a `[1, 64, 8192]` block. Over the
  extended reals the stored element `(0, n, p)` is therefore the plain sum `Σ_q w[n, q] · g[0, p, q]`.
-/
import proofs.«410657_j76656576299098_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The contraction's operand indices, axis by axis -/

theorem lhs_mm_0 (i : S64x8192.Idx) (q : dot_S64x576_S8192x576_S64x8192_1_1_0_0_n_n.contr.Idx) :
    (dot_S64x576_S8192x576_S64x8192_1_1_0_0_n_n.lhsIdx i q 0).val = (i 0).val := by
  unfold DotDims.lhsIdx
  rw [dif_neg (show ¬(0 : Fin S64x576.rank) ∈ dot_S64x576_S8192x576_S64x8192_1_1_0_0_n_n.lhsBatch by decide), dif_pos (show (0 : Fin S64x576.rank) ∈ dot_S64x576_S8192x576_S64x8192_1_1_0_0_n_n.lhsNonContracting by decide)]
  rfl
theorem lhs_mm_1 (i : S64x8192.Idx) (q : dot_S64x576_S8192x576_S64x8192_1_1_0_0_n_n.contr.Idx) :
    (dot_S64x576_S8192x576_S64x8192_1_1_0_0_n_n.lhsIdx i q 1).val = (q ⟨0, by decide⟩).val :=
  dot_S64x576_S8192x576_S64x8192_1_1_0_0_n_n.lhsIdx_val_of_single rfl i q
theorem rhs_mm_0 (i : S64x8192.Idx) (q : dot_S64x576_S8192x576_S64x8192_1_1_0_0_n_n.contr.Idx) :
    (dot_S64x576_S8192x576_S64x8192_1_1_0_0_n_n.rhsIdx i q 0).val = (i 1).val := by
  unfold DotDims.rhsIdx
  rw [dif_neg (show ¬(0 : Fin S8192x576.rank) ∈ dot_S64x576_S8192x576_S64x8192_1_1_0_0_n_n.rhsBatch by decide), dif_pos (show (0 : Fin S8192x576.rank) ∈ dot_S64x576_S8192x576_S64x8192_1_1_0_0_n_n.rhsNonContracting by decide)]
  rfl
theorem rhs_mm_1 (i : S64x8192.Idx) (q : dot_S64x576_S8192x576_S64x8192_1_1_0_0_n_n.contr.Idx) :
    (dot_S64x576_S8192x576_S64x8192_1_1_0_0_n_n.rhsIdx i q 1).val = (q ⟨0, by decide⟩).val :=
  dot_S64x576_S8192x576_S64x8192_1_1_0_0_n_n.rhsIdx_val_of_single rfl i q

/-! ## The product into a zero accumulator, at an index -/

/-- The matrix unit's product of `a : [64, 576]` and `b : [8192, 576]` over their second axes, into zeros, at
    `(n, p)`: the sum over `q` of `a[n, q] · b[p, q]`. -/
theorem mm_apply (a : FVec Ideal S64x576 .bf16) (b : FVec Ideal S8192x576 .bf16) (n : Fin 64) (p : Fin 8192) :
    matmul dot_S64x576_S8192x576_S64x8192_1_1_0_0_n_n none a b (constant (F := Ideal) S64x8192 .f32 0x00000000#32) (ix2 n p)
      = ∑ q : Fin 576, a (ix2 n q) * b (ix2 p q) := by
  simp only [matmul]
  rw [Ideal.matmul_constant_zero_apply, ← Equiv.sum_comp (ValueIdx.contrEquiv1 dot_S64x576_S8192x576_S64x8192_1_1_0_0_n_n 576 rfl rfl).symm]
  refine Finset.sum_congr rfl fun k _ => ?_
  have hk := ValueIdx.contrEquiv1_symm_val dot_S64x576_S8192x576_S64x8192_1_1_0_0_n_n 576 rfl rfl k
  have el : dot_S64x576_S8192x576_S64x8192_1_1_0_0_n_n.lhsIdx (ix2 n p) ((ValueIdx.contrEquiv1 dot_S64x576_S8192x576_S64x8192_1_1_0_0_n_n 576 rfl rfl).symm k) = ix2 n k := funext fun a => Fin.ext (by
    match a with
    | ⟨0, _⟩ => exact lhs_mm_0 _ _
    | ⟨1, _⟩ => exact (lhs_mm_1 _ _).trans hk)
  have er : dot_S64x576_S8192x576_S64x8192_1_1_0_0_n_n.rhsIdx (ix2 n p) ((ValueIdx.contrEquiv1 dot_S64x576_S8192x576_S64x8192_1_1_0_0_n_n 576 rfl rfl).symm k) = ix2 p k := funext fun a => Fin.ext (by
    match a with
    | ⟨0, _⟩ => exact rhs_mm_0 _ _
    | ⟨1, _⟩ => exact (rhs_mm_1 _ _).trans hk)
  rw [el, er]

/-! ## The stored block at an index -/

/-- THE STORE AT `(0, n, p)`: `Σ_q w[n, q] · g[0, p, q]`. -/
theorem pay_apply (w : Vec Ideal S64x576 .bf16) (g : Vec Ideal S1x8192x576 .bf16) (n : Fin 64) (p : Fin 8192) :
    k0_pay1 (F := Ideal) w g (ix3 (0 : Fin 1) n p) = ∑ q : Fin 576, w (ix2 n q) * g (ix3 (0 : Fin 1) p q) := by
  unfold k0_pay1
  refine (shapeCast_addUnit_apply (n := 2) ![64, 8192] _ _ _).trans ?_
  have ej : (fun a : Fin 2 => (ix3 (0 : Fin 1) n p) a.succ) = ix2 n p :=
    funext fun a => by match a with | ⟨0, _⟩ => rfl | ⟨1, _⟩ => rfl
  rw [ej]
  refine (mm_apply _ _ n p).trans ?_
  refine Finset.sum_congr rfl fun q _ => ?_
  rw [shapeCast_self]
  refine congrArg (w (ix2 n q) * ·) ?_
  refine (shapeCast_dropUnit_apply (n := 2) ![8192, 576] _ _ _).trans ?_
  refine congrArg g (funext fun a => ?_)
  match a with
  | ⟨0, _⟩ => rfl
  | ⟨1, _⟩ => rfl
  | ⟨2, _⟩ => rfl

end Cert.KernelIdeal.Body

end
-- ==== Proof.KernelHost.lean ====
/-
  What the kernel's launch finds in its two input arrays.

  Before the launch @main narrows `x` (the identity on extended reals), flattens each image to `[16, 1048576]`,
  transposes to `[1048576, 16]`, takes rows at the table's entries (result `[16384, 576, 16]`) and brings the batch
  axis to the front: the first window's array `[16, 16384, 576]`. The second window's array is the narrowed weights.
-/
import proofs.«410657_j76656576299098_3_alg».proof.Proof.Gen.KernelIdeal.Frame
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ)

/-- The gathered rows, batch axis first, as a term of the launch contents of `x` and of the table. -/
def gathered (x : FVec Ideal S16x64x128x128 .f32) (tbl : IVec S16384x576 32) : FVec Ideal S16x16384x576 .bf16 :=
  transpose S16x16384x576 [2, 0, 1]
    (Host.gather gather_S1048576x16_S16384x576x1_S16384x576x16_2_0_n_n_0_2_116
      (transpose S1048576x16 [1, 0]
        (shapeCast S16x1048576 (truncf (F := Ideal) .bf16 x bitsLt_bf16_f32) shapeCasts_S16x64x128x128_S16x1048576)
        transposes_S16x1048576_S1048576x16_1_0)
      (broadcastInDim S16384x576x1 ![0, 1] bcast_S16384x576_S16384x576x1_0_1 tbl))
    transposes_S16384x576x16_S16x16384x576_2_0_1

/-- The first window's array at the launch. -/
theorem V_main_v4 (c : Dev nD) :
    (V m c main_v4 : S16x16384x576.Idx → EReal)
      = gathered (m ((c : Thread nD τ).loc main_arg0)) (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results
  rfl

/-- The second window's array at the launch: the weights (narrowing is the identity on extended reals). -/
theorem V_main_v5 (c : Dev nD) :
    (V m c main_v5 : S64x576.Idx → EReal)
      = truncf (F := Ideal) .bf16 (m ((c : Thread nD τ).loc main_arg2)) bitsLt_bf16_f32 := by
  dsimp only [Gen.V, Gen.V0]
  simp only [Gen.hostOps0, Gen.hostOps0_1, Gen.hostOps0_2, List.flatten_cons, List.flatten_nil, List.append_nil,
    List.cons_append, List.nil_append]
  after_results

end Cert.KernelIdeal.Host

end
-- ==== Proof.Spec.lean ====
/-
  The specification both programs are proved against.

  With `g[b, p, q]` the gathered activations (image `b`, pixel `p`, tap `q`) and `w[n, q]` the filter bank, the
  convolution's output before its last reshape is `out[b, n, p] = Σ_q w[n, q] · g[b, p, q]`, a sum of 576 products
  of extended reals.
-/
import Idealize.ShloMosaic.Lib.ValueIdx

noncomputable section

open scoped BigOperators

namespace Cert.Spec

open Idealize.ShloMosaic Idealize.ShloMosaic.ValueIdx

/-- `out[b, n, p] = Σ_q w[n, q] · g[b, p, q]`. -/
def conv (g : (⟨3, ![16, 16384, 576]⟩ : Shape).Idx → EReal) (w : (⟨2, ![64, 576]⟩ : Shape).Idx → EReal) :
    (⟨3, ![16, 64, 16384]⟩ : Shape).Idx → EReal :=
  fun j => ∑ q : Fin 576, w (ix2 (j 1) q) * g (ix3 (j 0) (j 2) q)

end Cert.Spec

end
-- ==== Proof.KernelValue.lean ====
/-
  The kernel's result array, as one function of the launch contents.

  The grid has 16 × 2 points; point `(b, s)` reads image `b`'s rows `8192 s … 8192 s + 8191` of the gathered
  activations and the whole filter bank, and writes the `[1, 64, 8192]` block at `(b, 0, s)` of the `[16, 64, 16384]`
  result. Each written element is the specification's sum at its own array index, the blocks tile the result, and the
  last host operation reshapes it to `[16, 64, 128, 128]`.
-/
import proofs.«410657_j76656576299098_3_alg».proof.Proof.KernelPayload
import proofs.«410657_j76656576299098_3_alg».proof.Proof.KernelHost
import proofs.«410657_j76656576299098_3_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The three index maps, decided over the grid: the activations' block follows the output's image and pixel
    tile and spans all taps; the filter bank's block is the whole array; the output's block spans all filters. -/
theorem index_maps : ∀ t : Fin cfg0.N,
    win0_0.index t (0 : Fin 3) = win0_2.index t (0 : Fin 3)
    ∧ win0_0.index t (1 : Fin 3) = win0_2.index t (2 : Fin 3)
    ∧ win0_0.index t (2 : Fin 3) = 0
    ∧ win0_1.index t (0 : Fin 2) = 0 ∧ win0_1.index t (1 : Fin 2) = 0
    ∧ win0_2.index t (1 : Fin 3) = 0 :=
  (by decide +kernel : ∀ t : Fin grid0.N, _)

/-- Every (image, pixel tile) pair is some point's output block. -/
theorem every_block : ∀ (b : Fin 16) (s : Fin 2), ∃ t : Fin cfg0.N, win0_2.index t = ![b.val, 0, s.val] :=
  (by decide +kernel : ∀ (b : Fin 16) (s : Fin 2), ∃ t : Fin grid0.N, win0_2.index t = ![b.val, 0, s.val])

/-- WHAT POINT `t` WRITES BACK is block `t` of the specification at the arrays the launch finds. -/
theorem flushed_eq (c : Dev nD) (t : Fin cfg0.N) :
    (dats m 0 c).flushed 2 t
      = ((cfg0.win 2).blk t).view.read (Elt Ideal) (Spec.conv (V m c main_v4) (V m c main_v5)) := by
  show (cfg0.win 2).cut (grid0.coords t) ((dats m 0 c).after 2 t) = _
  rw [after0_2]
  unfold out0_2
  rw [View.canon_unit_zero zero3]
  simp only [View.ld_unit_zero (S := S64x576) zero2, View.ld_unit_zero (S := S1x8192x576) zero3]
  funext j
  obtain ⟨z, n, p, rfl⟩ : ∃ (z : Fin 1) (n : Fin 64) (p : Fin 8192), j = ix3 z n p := ⟨j 0, j 1, j 2, eq_ix3 j⟩
  obtain rfl : z = 0 := Subsingleton.elim _ _
  show k0_pay1 (F := Ideal) (iblk m c 1 t) (iblk m c 0 t) (ix3 0 n p)
    = Spec.conv (V m c main_v4) (V m c main_v5) (((cfg0.win 2).blk t).view.emb (ix3 0 n p))
  refine (Body.pay_apply (iblk m c 1 t) (iblk m c 0 t) n p).trans ?_
  unfold Spec.conv
  refine Finset.sum_congr rfl fun q _ => ?_
  obtain ⟨e0, e1, e2, e3, e4, e5⟩ := index_maps t
  -- the filter bank's element: row `n`, tap `q` of the whole array
  have hw : iblk m c 1 t (ix2 n q)
      = V m c main_v5 (ix2 (((cfg0.win 2).blk t).view.emb (ix3 0 n p) 1) q) := by
    show V m c main_v5 (((cfg0.win 1).blk t).view.emb (ix2 n q)) = _
    refine congrArg (V m c main_v5) (funext fun a => Fin.ext ?_)
    match a with
    | ⟨0, _⟩ => show win0_1.index t (0 : Fin 2) * 64 + 1 * n.val = win0_2.index t (1 : Fin 3) * 64 + 1 * n.val; omega
    | ⟨1, _⟩ => show win0_1.index t (1 : Fin 2) * 576 + 1 * q.val = q.val; omega
  -- the activation: the output element's image and pixel, tap `q`
  have hg : iblk m c 0 t (ix3 0 p q)
      = V m c main_v4 (ix3 (((cfg0.win 2).blk t).view.emb (ix3 0 n p) 0) (((cfg0.win 2).blk t).view.emb (ix3 0 n p) 2) q) := by
    show V m c main_v4 (((cfg0.win 0).blk t).view.emb (ix3 0 p q)) = _
    refine congrArg (V m c main_v4) (funext fun a => Fin.ext ?_)
    match a with
    | ⟨0, _⟩ => show win0_0.index t (0 : Fin 3) * 1 + 1 * 0 = win0_2.index t (0 : Fin 3) * 1 + 1 * 0; omega
    | ⟨1, _⟩ => show win0_0.index t (1 : Fin 3) * 8192 + 1 * p.val = win0_2.index t (2 : Fin 3) * 8192 + 1 * p.val; omega
    | ⟨2, _⟩ => show win0_0.index t (2 : Fin 3) * 576 + 1 * q.val = q.val; omega
  rw [hw, hg]

/-- An index of the result is in point `t`'s block iff each coordinate is in the block's range on its axis. -/
theorem mem_blk (t : Fin cfg0.N) (i : S16x64x16384.Idx) :
    i ∈ ((cfg0.win 2).blk t).view.set ↔ ∀ a : Fin 3, win0_2.index t a * S1x64x8192.size a ≤ (i a).val
      ∧ (i a).val < win0_2.index t a * S1x64x8192.size a + S1x64x8192.size a := by
  show i ∈ ((View.whole main_v6).slice (win0_2.rect t)).set ↔ _
  rw [View.set_slice_whole, Rect.mem_set_unit]
  exact Iff.rfl

/-- The blocks cover the result: element `(b, n, p)` lies in the block of image `b` and pixel tile `p / 8192`. -/
theorem covered (i : S16x64x16384.Idx) :
    ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 16384 := (i 2).isLt
  obtain ⟨t, ht⟩ := every_block ⟨(i 0).val, hi0⟩ ⟨(i 2).val / 8192, by omega⟩
  have q0 : win0_2.index t (0 : Fin 3) = (i 0).val := congrFun ht 0
  have q1 : win0_2.index t (1 : Fin 3) = 0 := congrFun ht 1
  have q2 : win0_2.index t (2 : Fin 3) = (i 2).val / 8192 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 8192 ≤ (i 2).val ∧ (i 2).val < win0_2.index t (2 : Fin 3) * 8192 + 8192; omega

/-- THE RESULT ARRAY of the launch: the specification at the gathered activations and the weights. -/
theorem final (c : Dev nD) :
    (dats m 0 c).arrAt 2 cfg0.N
      = Spec.conv (Host.gathered (m ((c : Thread nD τ).loc main_arg0)) (m ((c : Thread nD τ).loc main_arg1)))
          (m ((c : Thread nD τ).loc main_arg2)) := by
  rw [(dats m 0 c).arrAt_eq_of_cover 2 _ (fun t _ => flushed_eq m c t) (covered)]
  rw [Host.V_main_v4, Host.V_main_v5]
  rfl

/-- The reshape after the launch applied to it: @main's result. -/
theorem tail_eq (c : Dev nD) :
    Pipeline.afterTail₀ cfgs (dats m) 0 (V0 m) [hostOps1] c main_v7
      = shapeCast S16x64x128x128
          (Spec.conv (Host.gathered (m ((c : Thread nD τ).loc main_arg0)) (m ((c : Thread nD τ).loc main_arg1)))
            (m ((c : Thread nD τ).loc main_arg2))) shapeCasts_S16x64x16384_S16x64x128x128 := by
  unfold Pipeline.afterTail₀
  show StableHlo.after hostOps1 _ (Proc.devRef .tc main_v7) = _
  after_results
  have e : Pipeline.withArrays (cfgs 0).spec c (V0 m c) (fun w => (dats m 0 c).arrAt w (cfgs 0).N)
      (Proc.devRef .tc main_v6)
      = Spec.conv (Host.gathered (m ((c : Thread nD τ).loc main_arg0)) (m ((c : Thread nD τ).loc main_arg1)))
          (m ((c : Thread nD τ).loc main_arg2)) :=
    (Pipeline.withArrays_arr spec0 launch0.win.arr_inj c _ _ 2).trans (final m c)
  rw [e]
  rfl

/-- THE KERNEL'S RUN: every weakly fair execution terminates with @main's result at the reshaped specification
    and the three arguments as launched. -/
theorem run : θ_run defs (onTc (τ := τ) (main (F := Ideal))) ⟨m, fun _ => 0, ρ⟩ fun r => ∀ c : Dev nD,
      r.2.mem ((c.tc : Thread nD τ).loc main_v7)
        = shapeCast S16x64x128x128
            (Spec.conv (Host.gathered (m ((c : Thread nD τ).loc main_arg0)) (m ((c : Thread nD τ).loc main_arg1)))
              (m ((c : Thread nD τ).loc main_arg2))) shapeCasts_S16x64x16384_S16x64x128x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Blocks

end
-- ==== Proof.RefValue.lean ====
/-
  The reference's result before its last reshape is the specification at ITS gathered activations.

  The reference contracts the gathered activations `[16, 16384, 576]` with the filter bank `[64, 576]` over the taps
  (result `[16, 16384, 64]`) and swaps the last two axes: element `(b, n, p)` is `Σ_q g[b, p, q] · w[n, q]`, the
  specification's sum with each product's factors in the other order.
-/
import proofs.«410657_j76656576299098_3_alg».proof.Proof.Gen.ReferenceIdeal.Read
import proofs.«410657_j76656576299098_3_alg».proof.Proof.Spec

noncomputable section

namespace Cert.ReferenceIdeal.RefValue

open Cert.ReferenceIdeal Cert.ReferenceIdeal.Gen Idealize.ShloMosaic Idealize.ShloMosaic.ValueIdx

/-- The contraction, transposed, is the specification at the reference's gathered activations. -/
theorem contracted_eq (x : FVec Ideal S16x64x128x128 .f32) (tbl : IVec S16384x576 32) (w : FVec Ideal S64x576 .f32) :
    Read.val_main_v9 (F := Ideal) x tbl w = Spec.conv (Read.val_main_v7 (F := Ideal) x tbl) w := by
  funext j
  rw [Read.val_main_v9_apply, Read.val_main_v8_apply]
  unfold Spec.conv
  refine Finset.sum_congr rfl fun q _ => ?_
  have e1 : Read.ridx_main_v8 (Read.idx_main_v9 j) q = ix2 (j 1) q :=
    funext fun a => Fin.ext (by match a with | ⟨0, _⟩ => rfl | ⟨1, _⟩ => rfl)
  have e2 : Read.lidx_main_v8 (Read.idx_main_v9 j) q = ix3 (j 0) (j 2) q :=
    funext fun a => Fin.ext (by match a with | ⟨0, _⟩ => rfl | ⟨1, _⟩ => rfl | ⟨2, _⟩ => rfl)
  rw [e1, e2]
  exact mul_comm _ _

end Cert.ReferenceIdeal.RefValue

end
-- ==== Proof.LibGatherAxis.lean ====
/-
  A two-axis table gathered along ONE of its axes by a rectangle of start indices, read at an index.

  `jnp.take(x, idx, axis = 0)` of `x : [N, B]` at `idx : [R, C]` lowers to a gather whose result `[R, C, B]` has
  one offset axis (the last, running over the table's second axis) and whose first operand axis is collapsed and
  indexed by the start index; `x[:, idx]` of `x : [B, N]` lowers to the mirror image, result `[B, R, C]`. In both the
  result element is the table's element whose indexed coordinate is the start index `idx[r, c, 0]`, read as a signed
  integer and clamped into `[0, N - 1]`, and whose other coordinate is the result's offset coordinate.
-/
import Idealize.ShloMosaic.Lib.ValueIdx

noncomputable section

namespace Idealize.ShloMosaic.GatherAxis

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-! ## Rows: operand `[N, B]`, start indices `[R, C, 1]`, result `[R, C, B]` -/

/-- The dimension numbers of a take of whole rows. -/
abbrev rowsDims (N B R C : Nat)
    (wf : GatherDims.WF ⟨2, ![N, B]⟩ ⟨3, ![R, C, 1]⟩ ⟨3, ![R, C, B]⟩ [2] [0] [] [0] [] 2 ![1, B]) :
    GatherDims ⟨2, ![N, B]⟩ ⟨3, ![R, C, 1]⟩ ⟨3, ![R, C, B]⟩ where
  offsetDims := [2]
  collapsedSliceDims := [0]
  operandBatchingDims := []
  startIndicesBatchingDims := []
  startIndexMap := [0]
  indexVectorDim := 2
  sliceSizes := ![1, B]
  wf := wf

/-- On the indexed axis the operand index is the clamped start index. -/
theorem rows_axis0 {N B R C w : Nat}
    (wf : GatherDims.WF ⟨2, ![N, B]⟩ ⟨3, ![R, C, 1]⟩ ⟨3, ![R, C, B]⟩ [2] [0] [] [0] [] 2 ![1, B])
    (idx : IVec ⟨3, ![R, C, 1]⟩ w) (j : (⟨3, ![R, C, B]⟩ : Shape).Idx) :
    ((rowsDims N B R C wf).operandIdx j idx 0).val
      = min (idx (ix3 (j 0) (j 1) (0 : Fin 1))).toInt.toNat (N - 1) := by
  show (rowsDims N B R C wf).start j idx 0 + (rowsDims N B R C wf).batchCoord j 0 + (rowsDims N B R C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N B R C wf).startIndexMap from List.mem_singleton.mpr rfl)]
  have hsi : (rowsDims N B R C wf).siIdx j ⟨List.idxOf (0 : Fin 2) (rowsDims N B R C wf).startIndexMap,
      List.idxOf_lt_length_iff.2 (List.mem_singleton.mpr rfl)⟩ = ix3 (j 0) (j 1) (0 : Fin 1) := by
    funext b; refine Fin.ext ?_
    match b with
    | ⟨0, _⟩ => rfl
    | ⟨1, _⟩ => rfl
    | ⟨2, _⟩ => rfl
  rw [hsi]
  rfl

/-- On the other axis it is the result's offset coordinate. -/
theorem rows_axis1 {N B R C w : Nat}
    (wf : GatherDims.WF ⟨2, ![N, B]⟩ ⟨3, ![R, C, 1]⟩ ⟨3, ![R, C, B]⟩ [2] [0] [] [0] [] 2 ![1, B])
    (idx : IVec ⟨3, ![R, C, 1]⟩ w) (j : (⟨3, ![R, C, B]⟩ : Shape).Idx) :
    ((rowsDims N B R C wf).operandIdx j idx 1).val = (j 2).val := by
  show (rowsDims N B R C wf).start j idx 1 + (rowsDims N B R C wf).batchCoord j 1 + (rowsDims N B R C wf).offCoord j 1 = _
  rw [GatherDims.batchCoord_eq_zero _ _ _ List.not_mem_nil]
  unfold GatherDims.start
  rw [dif_neg (show ¬ (1 : Fin 2) ∈ (rowsDims N B R C wf).startIndexMap from
    fun h => absurd (List.mem_singleton.mp h) (by decide : ¬ (1 : Fin 2) = 0))]
  unfold GatherDims.offCoord
  rw [dif_pos (show (1 : Fin 2) ∈ (rowsDims N B R C wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, c, b)`: the table at row `idx[r, c, 0]` (signed, clamped) and column `b`. -/
theorem gather_rows_apply {N B R C w : Nat} (hN : 0 < N)
    (wf : GatherDims.WF ⟨2, ![N, B]⟩ ⟨3, ![R, C, 1]⟩ ⟨3, ![R, C, B]⟩ [2] [0] [] [0] [] 2 ![1, B])
    (x : (⟨2, ![N, B]⟩ : Shape).Idx → α) (idx : IVec ⟨3, ![R, C, 1]⟩ w) (j : (⟨3, ![R, C, B]⟩ : Shape).Idx) :
    Host.gather (rowsDims N B R C wf) x idx j
      = x (ix2 (clampPos N hN (idx (ix3 (j 0) (j 1) (0 : Fin 1)))) (j 2)) := by
  unfold Host.gather
  refine congrArg x (funext fun a => Fin.ext ?_)
  match a with
  | ⟨0, _⟩ => exact rows_axis0 wf idx j
  | ⟨1, _⟩ => exact rows_axis1 wf idx j

/-! ## Columns: operand `[B, N]`, start indices `[R, C, 1]`, result `[B, R, C]` -/

/-- The dimension numbers of a take of whole columns. -/
abbrev colsDims (B N R C : Nat)
    (wf : GatherDims.WF ⟨2, ![B, N]⟩ ⟨3, ![R, C, 1]⟩ ⟨3, ![B, R, C]⟩ [0] [1] [] [1] [] 2 ![B, 1]) :
    GatherDims ⟨2, ![B, N]⟩ ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- On the offset axis the operand index is the result's first coordinate. -/
theorem cols_axis0 {B N R C w : Nat}
    (wf : GatherDims.WF ⟨2, ![B, N]⟩ ⟨3, ![R, C, 1]⟩ ⟨3, ![B, R, C]⟩ [0] [1] [] [1] [] 2 ![B, 1])
    (idx : IVec ⟨3, ![R, C, 1]⟩ w) (j : (⟨3, ![B, R, C]⟩ : Shape).Idx) :
    ((colsDims B N R C wf).operandIdx j idx 0).val = (j 0).val := by
  show (colsDims B N R C wf).start j idx 0 + (colsDims B N R C wf).batchCoord j 0 + (colsDims B N R C wf).offCoord j 0 = _
  rw [GatherDims.batchCoord_eq_zero _ _ _ List.not_mem_nil]
  unfold GatherDims.start
  rw [dif_neg (show ¬ (0 : Fin 2) ∈ (colsDims B N R C wf).startIndexMap from
    fun h => absurd (List.mem_singleton.mp h) (by decide : ¬ (0 : Fin 2) = 1))]
  unfold GatherDims.offCoord
  rw [dif_pos (show (0 : Fin 2) ∈ (colsDims B N R C wf).sKept from
    (GatherDims.mem_sKept _ _).mpr ⟨fun h => absurd (List.mem_singleton.mp h) (by decide : ¬ (0 : Fin 2) = 1), List.not_mem_nil⟩)]
  simp only [Nat.zero_add, Nat.add_zero]
  rfl

/-- On the indexed axis it is the clamped start index. -/
theorem cols_axis1 {B N R C w : Nat}
    (wf : GatherDims.WF ⟨2, ![B, N]⟩ ⟨3, ![R, C, 1]⟩ ⟨3, ![B, R, C]⟩ [0] [1] [] [1] [] 2 ![B, 1])
    (idx : IVec ⟨3, ![R, C, 1]⟩ w) (j : (⟨3, ![B, R, C]⟩ : Shape).Idx) :
    ((colsDims B N R C wf).operandIdx j idx 1).val
      = min (idx (ix3 (j 1) (j 2) (0 : Fin 1))).toInt.toNat (N - 1) := by
  show (colsDims B N R C wf).start j idx 1 + (colsDims B N R C wf).batchCoord j 1 + (colsDims B N R C wf).offCoord j 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colsDims B N R C wf).startIndexMap from List.mem_singleton.mpr rfl)]
  have hsi : (colsDims B N R C wf).siIdx j ⟨List.idxOf (1 : Fin 2) (colsDims B N R C wf).startIndexMap,
      List.idxOf_lt_length_iff.2 (List.mem_singleton.mpr rfl)⟩ = ix3 (j 1) (j 2) (0 : Fin 1) := by
    funext b; refine Fin.ext ?_
    match b with
    | ⟨0, _⟩ => rfl
    | ⟨1, _⟩ => rfl
    | ⟨2, _⟩ => rfl
  rw [hsi]
  rfl

/-- THE TAKE OF COLUMNS AT `(b, r, c)`: the table at row `b` and column `idx[r, c, 0]` (signed, clamped). -/
theorem gather_cols_apply {B N R C w : Nat} (hN : 0 < N)
    (wf : GatherDims.WF ⟨2, ![B, N]⟩ ⟨3, ![R, C, 1]⟩ ⟨3, ![B, R, C]⟩ [0] [1] [] [1] [] 2 ![B, 1])
    (x : (⟨2, ![B, N]⟩ : Shape).Idx → α) (idx : IVec ⟨3, ![R, C, 1]⟩ w) (j : (⟨3, ![B, R, C]⟩ : Shape).Idx) :
    Host.gather (colsDims B N R C wf) x idx j
      = x (ix2 (j 0) (clampPos N hN (idx (ix3 (j 1) (j 2) (0 : Fin 1))))) := by
  unfold Host.gather
  refine congrArg x (funext fun a => Fin.ext ?_)
  match a with
  | ⟨0, _⟩ => exact cols_axis0 wf idx j
  | ⟨1, _⟩ => exact cols_axis1 wf idx j

end Idealize.ShloMosaic.GatherAxis

end
-- ==== Proof.Gathered.lean ====
/-
  The two programs gather the same activations when the table is non-negative.

  Write `flat[b, f]` for image `b` flattened to `1048576` entries. The kernel's program transposes `flat`, takes
  ROWS at the table's entries and brings the batch axis to the front; the reference first replaces a negative entry
  `e` by `e + 1048576` and takes COLUMNS of `flat`. Both takes read the entry as a signed integer and clamp it into
  `[0, 1048575]`. On a non-negative entry the replacement does nothing, so both arrays hold, at `(b, p, q)`,
  `flat[b, clamp(table[p, q])]` (narrowing to bf16 being the identity on extended reals).
-/
import proofs.«410657_j76656576299098_3_alg».proof.Proof.KernelHost
import proofs.«410657_j76656576299098_3_alg».proof.Proof.Gen.ReferenceIdeal.Read
import proofs.«410657_j76656576299098_3_alg».proof.Proof.LibGatherAxis
import Idealize.ShloMosaic.Lib.Pipeline.Value
import Idealize.ShloMosaic.Lib.Affine

noncomputable section

namespace Cert.Gathered

open Idealize.ShloMosaic Idealize.ShloMosaic.ValueIdx Idealize.ShloMosaic.GatherAxis

/-- Image `b` flattened, entry `f`. -/
def flat (x : (⟨4, ![16, 64, 128, 128]⟩ : Shape).Idx → EReal) : (⟨2, ![16, 1048576]⟩ : Shape).Idx → EReal :=
  shapeCast ⟨2, ![16, 1048576]⟩ x Cert.ReferenceIdeal.Facts₀.shapeCasts_S16x64x128x128_S16x1048576

/-- The table's column of start indices `[16384, 576, 1]` at `(p, q, 0)` is the table at `(p, q)`. -/
theorem column_apply {w : Nat} (tbl : IVec ⟨2, ![16384, 576]⟩ w)
    (h : (⟨2, ![16384, 576]⟩ : Shape).BroadcastsInDim ⟨3, ![16384, 576, 1]⟩ ![0, 1]) (p : Fin 16384) (q : Fin 576) :
    broadcastInDim ⟨3, ![16384, 576, 1]⟩ ![0, 1] h tbl (ix3 p q (0 : Fin 1)) = tbl (ix2 p q) :=
  broadcastInDim_apply _ h tbl _ (ix2 p q) (fun a => match a with
    | ⟨0, _⟩ => by show p.val = if (16384 : Nat) = 1 then 0 else p.val; rw [if_neg (by decide)]
    | ⟨1, _⟩ => by show q.val = if (576 : Nat) = 1 then 0 else q.val; rw [if_neg (by decide)])

/-- The kernel's gathered activations at `(b, p, q)`. -/
theorem kernel_apply (x : FVec Ideal Cert.KernelIdeal.S16x64x128x128 .f32) (tbl : IVec Cert.KernelIdeal.S16384x576 32)
    (b : Fin 16) (p : Fin 16384) (q : Fin 576) :
    Cert.KernelIdeal.Host.gathered x tbl (ix3 b p q)
      = flat x (ix2 b (clampPos 1048576 (by decide) (tbl (ix2 p q)))) := by
  unfold Cert.KernelIdeal.Host.gathered
  refine (transpose_apply [2, 0, 1] _ _ (ix3 b p q) (ix3 p q b) (fun a => by
    match a with
    | ⟨0, _⟩ => rfl
    | ⟨1, _⟩ => rfl
    | ⟨2, _⟩ => rfl)).trans ?_
  refine (gather_rows_apply (N := 1048576) (B := 16) (R := 16384) (C := 576) (by decide) _ _ _ (ix3 p q b)).trans ?_
  refine (transpose_apply [1, 0] _ _ _ (ix2 b (clampPos 1048576 (by decide)
    (broadcastInDim Cert.KernelIdeal.S16384x576x1 ![0, 1] Cert.KernelIdeal.Facts₀.bcast_S16384x576_S16384x576x1_0_1 tbl
      (ix3 p q (0 : Fin 1))))) (fun a => by
    match a with
    | ⟨0, _⟩ => rfl
    | ⟨1, _⟩ => rfl)).trans ?_
  rw [column_apply]
  rfl

/-- The reference's gathered activations at `(b, p, q)`, at a non-negative table. -/
theorem reference_apply (x : FVec Ideal Cert.ReferenceIdeal.S16x64x128x128 .f32) (tbl : IVec Cert.ReferenceIdeal.S16384x576 32)
    (hpos : ∀ i, 0 ≤ (tbl i).toInt) (b : Fin 16) (p : Fin 16384) (q : Fin 576) :
    Cert.ReferenceIdeal.Read.val_main_v7 (F := Ideal) x tbl (ix3 b p q)
      = flat x (ix2 b (clampPos 1048576 (by decide) (tbl (ix2 p q)))) := by
  -- the wrapped table is the table
  have hsel : Cert.ReferenceIdeal.Read.val_main_v5 (F := Ideal) tbl = tbl := by
    funext i
    rw [Cert.ReferenceIdeal.Read.val_main_v5_apply, Cert.ReferenceIdeal.Read.val_main_v2_apply,
      Cert.ReferenceIdeal.Read.val_main_v1_apply, Cert.ReferenceIdeal.Read.val_main_c_apply]
    have hc : IntOp.cmpi .slt (tbl i) 0#32 = 0#1 := eq_zero_of_ne_one (fun h => by
      have h1 := IntOp.cmpi_slt.mp h
      have h2 := hpos i
      have h0 : (0#32 : BitVec 32).toInt = 0 := by decide
      rw [h0] at h1
      omega)
    rw [hc, select_zero]
  unfold Cert.ReferenceIdeal.Read.val_main_v7
  refine (gather_cols_apply (B := 16) (N := 1048576) (R := 16384) (C := 576) (by decide) _ _ _ (ix3 b p q)).trans ?_
  show Cert.ReferenceIdeal.Read.val_main_v0 (F := Ideal) x (ix2 b (clampPos 1048576 (by decide)
    (Cert.ReferenceIdeal.Read.val_main_v6 (F := Ideal) tbl (ix3 p q (0 : Fin 1))))) = _
  unfold Cert.ReferenceIdeal.Read.val_main_v6
  rw [hsel, column_apply]
  rfl

/-- THE SAME ARRAY. -/
theorem gathered_eq (x : (⟨4, ![16, 64, 128, 128]⟩ : Shape).Idx → EReal) (tbl : IVec ⟨2, ![16384, 576]⟩ 32)
    (hpos : ∀ i, 0 ≤ (tbl i).toInt) :
    Cert.KernelIdeal.Host.gathered x tbl = Cert.ReferenceIdeal.Read.val_main_v7 (F := Ideal) x tbl := by
  funext j
  obtain ⟨b, p, q, rfl⟩ : ∃ (b : Fin 16) (p : Fin 16384) (q : Fin 576), j = ix3 b p q := ⟨j 0, j 1, j 2, eq_ix3 j⟩
  rw [kernel_apply, reference_apply x tbl hpos]

end Cert.Gathered

end
-- ==== Proof.TableNonneg.lean ====
/-
  The precondition, read back at the table.

  Its third conjunct is `all(table ≥ 0)`: a signed comparison of every entry with the zero word, reduced by `and`.
  Where the precondition holds, every entry of the table is therefore a non-negative integer.
-/
import proofs.«410657_j76656576299098_3_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Decode

open Cert.Pre_finite_inputs Cert.Pre_finite_inputs.Gen Idealize.ShloMosaic Idealize.ShloMosaic.ValueIdx

instance : Subsingleton S_.Idx := ⟨fun a b => funext fun d => d.elim0⟩

/-- Under the precondition every table entry is non-negative. -/
theorem table_nonneg {F : FTy → Type} [FloatOps F] (x : FVec F S16x64x128x128 .f32) (tbl : IVec S16384x576 32)
    (w : FVec F S64x576 .f32) (h : fn (F := F) x tbl w = fun _ => 1#1) (i : S16384x576.Idx) :
    0 ≤ (tbl i).toInt := by
  have h0 := congrFun h ix0
  dsimp only [fn] at h0
  have h1 : Host.reduce IntOp.andi
      (cmpi .sge tbl (broadcastInDim S16384x576 ![] bcast_S_S16384x576 (constantI S_ 32 0#32)))
      (constantI S_ 1 1#1) reducesTo_S16384x576_S_d0_1 h_S_ ix0 = 1#1 := (IntOp.andi_eq_one.mp h0).2
  have h2 := Host.reduce_andi_all _ _ _ _ _ h1 i
  exact IntOp.cmpi_sge.mp h2

end Cert.Pre_finite_inputs.Decode

end
-- ==== Proof.lean ====
/-
  A hash-indexed convolution: for every image `b`, pixel `p` and filter `n`,
  `out[b, n, p] = Σ_q w[n, q] · x_b[table[p, q]]`, where `x_b` is image `b` flattened to `C·H·W = 1048576` entries and
  `table : [16384, 576]` holds, per pixel, the flat positions of its 576 taps.

  The kernel's program gathers the activations on the host (rows of the transposed, bf16-narrowed images, the batch
  axis brought to the front) and contracts them with the filter bank on the matrix unit, one `[64, 8192]` block per
  (image, half of the pixels); the reference gathers columns of the flattened images and contracts once. Over the
  extended reals narrowing is the identity and both contractions are the same finite sum up to the order of each
  product's factors, so the results agree wherever the two gathers read the same entry. Both gathers clamp an entry
  into `[0, 1048575]`, but the reference first maps a NEGATIVE entry `e` to `e + 1048576` while the kernel's clamps it
  to `0`: the programs differ exactly on negative entries, and the precondition asks the table to be non-negative
  (an entry is a position in an array). Finiteness of the float inputs is not used: only commutativity of the
  product is.
-/
import proofs.«410657_j76656576299098_3_alg».proof.Defs
import proofs.«410657_j76656576299098_3_alg».proof.Proof.Gen.Kernel
import proofs.«410657_j76656576299098_3_alg».proof.Proof.Gen.Kernel.Skeleton
import proofs.«410657_j76656576299098_3_alg».proof.Proof.Gen.Kernel.Launch
import proofs.«410657_j76656576299098_3_alg».proof.Proof.Gen.Kernel.Points
import proofs.«410657_j76656576299098_3_alg».proof.Proof.Gen.Kernel.Frame
import proofs.«410657_j76656576299098_3_alg».proof.Proof.Gen.KernelIdeal
import proofs.«410657_j76656576299098_3_alg».proof.Proof.Gen.KernelIdeal.Skeleton
import proofs.«410657_j76656576299098_3_alg».proof.Proof.Gen.KernelIdeal.Launch
import proofs.«410657_j76656576299098_3_alg».proof.Proof.Gen.KernelIdeal.Points
import proofs.«410657_j76656576299098_3_alg».proof.Proof.Gen.KernelIdeal.Frame
import proofs.«410657_j76656576299098_3_alg».proof.Proof.Gen.ReferenceIdeal
import proofs.«410657_j76656576299098_3_alg».proof.Proof.Gen.ReferenceIdeal.Run
import proofs.«410657_j76656576299098_3_alg».proof.Proof.Gen.ReferenceIdeal.Read
import proofs.«410657_j76656576299098_3_alg».proof.Proof.Gen.Pre_finite_inputs
import proofs.«410657_j76656576299098_3_alg».proof.Proof.KernelValue
import proofs.«410657_j76656576299098_3_alg».proof.Proof.RefValue
import proofs.«410657_j76656576299098_3_alg».proof.Proof.Gathered
import proofs.«410657_j76656576299098_3_alg».proof.Proof.TableNonneg
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories agreeing on the arguments, with a non-negative table, both programs end at the reshape of
    `Σ_q w[n, q] · flat[b, clamp(table[p, q])]`. -/
theorem algebraic : Cert.algebraic_KernelIdeal_ReferenceIdeal := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq]
  unfold Cert.ReferenceIdeal.Read.val_main_v10
  rw [Cert.ReferenceIdeal.RefValue.contracted_eq, (hagree c).1, (hagree c).2.1, (hagree c).2.2]
  rw [← Cert.Gathered.gathered_eq _ _ (fun i => Cert.Pre_finite_inputs.Decode.table_nonneg _ _ _ (hpre c) i)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
